-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : FVec F S11008x4096 .f32) (main_arg2 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩
abbrev S11008x1 : Shape := ⟨2, ![11008, 1]⟩
abbrev S11264x4096 : Shape := ⟨2, ![11264, 4096]⟩
abbrev S8192x4096 : Shape := ⟨2, ![8192, 4096]⟩
abbrev S8192x11264 : Shape := ⟨2, ![8192, 11264]⟩
abbrev S1024x1024 : Shape := ⟨2, ![1024, 1024]⟩
abbrev S8192x11008 : Shape := ⟨2, ![8192, 11008]⟩
abbrev S4x2048x11008 : Shape := ⟨3, ![4, 2048, 11008]⟩

abbrev nBuf : Space → Nat
  | .hbm => 27
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S_, .f32⟩
  | .hbm, ⟨4, _⟩ => ⟨S11008x4096, .f32⟩
  | .hbm, ⟨5, _⟩ => ⟨S11008x4096, .f32⟩
  | .hbm, ⟨6, _⟩ => ⟨S11008x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S11008x4096, .f32⟩
  | .hbm, ⟨11, _⟩ => ⟨S11008x4096, .f32⟩
  | .hbm, ⟨12, _⟩ => ⟨S_, .f32⟩
  | .hbm, ⟨13, _⟩ => ⟨S11008x4096, .f32⟩
  | .hbm, ⟨14, _⟩ => ⟨S11008x4096, .f32⟩
  | .hbm, ⟨15, _⟩ => ⟨S11008x1, .f32⟩
  | .hbm, ⟨16, _⟩ => ⟨S11008x4096, .f32⟩
  | .hbm, ⟨17, _⟩ => ⟨S11008x4096, .f32⟩
  | .hbm, ⟨18, _⟩ => ⟨S_, .i32⟩
  | .hbm, ⟨19, _⟩ => ⟨S_, .f32⟩
  | .hbm, ⟨20, _⟩ => ⟨S11264x4096, .f32⟩
  | .hbm, ⟨21, _⟩ => ⟨S11264x4096, .bf16⟩
  | .hbm, ⟨22, _⟩ => ⟨S8192x4096, .f32⟩
  | .hbm, ⟨23, _⟩ => ⟨S8192x4096, .bf16⟩
  | .hbm, ⟨24, _⟩ => ⟨S8192x11264, .f32⟩
  | .hbm, ⟨25, _⟩ => ⟨S8192x11008, .f32⟩
  | .hbm, ⟨26, _⟩ => ⟨S4x2048x11008, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S11008x4096 : S_.BroadcastsInDim S11008x4096 (![] : Fin 0 → Fin S11008x4096.rank)
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  pads_S11008x4096_S11264x4096_02560_000 : S11008x4096.Pads (![0, 0] : Fin 2 → Nat) ![256, 0] ![0, 0] S11264x4096
  h_S_ : 0 < S_.numel
  bitsLt_bf16_f32 : FTy.bits .bf16 < FTy.bits .f32
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S8192x11264_S8192x11008_0_0 : S8192x11264.Slices ![0, 0] S8192x11008
  shapeCasts_S8192x11008_S4x2048x11008 : S8192x11008.ShapeCasts S4x2048x11008
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S11264x4096.size a
  hwx0_1 : ∀ i : grid0.Coords, EltTy.bits .bf16 = 32 ∨ (Rect.block (s := S11264x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x11264.size a
  hwx0_2 : ∀ i : grid0.Coords, EltTy.bits .f32 = 32 ∨ (Rect.block (s := S8192x11264) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩
abbrev S11008x1 : Shape := ⟨2, ![11008, 1]⟩
abbrev S4x2048x11008 : Shape := ⟨3, ![4, 2048, 11008]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S_, .f32⟩
  | .hbm, ⟨4, _⟩ => ⟨S11008x4096, .f32⟩
  | .hbm, ⟨5, _⟩ => ⟨S11008x4096, .f32⟩
  | .hbm, ⟨6, _⟩ => ⟨S11008x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S11008x4096, .f32⟩
  | .hbm, ⟨11, _⟩ => ⟨S11008x4096, .f32⟩
  | .hbm, ⟨12, _⟩ => ⟨S_, .f32⟩
  | .hbm, ⟨13, _⟩ => ⟨S11008x4096, .f32⟩
  | .hbm, ⟨14, _⟩ => ⟨S11008x4096, .f32⟩
  | .hbm, ⟨15, _⟩ => ⟨S11008x1, .f32⟩
  | .hbm, ⟨16, _⟩ => ⟨S11008x4096, .f32⟩
  | .hbm, ⟨17, _⟩ => ⟨S11008x4096, .f32⟩
  | .hbm, ⟨18, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Pieces.lean ====
/-
  What each of the body's three control cases leaves behind, as a value. The body keeps a 1024 by 1024 accumulator tile
  between grid points. At the first point of a run along the contracted grid axis it stores zeros into the accumulator
  and then the step applied to those zeros; at a middle point it stores the step applied to what the point before left;
  at the last point it does the same and also copies the new accumulator into the output tile. Each statement below says
  that the stores of one case, read back, are that value of the two input tiles (and of the accumulator found).
-/
import proofs.«181420_j47794396070042_1_alg».proof.Proof.Gen.KernelIdeal.Frame
import Idealize.ShloMosaic.Lib.Pipeline.Value

set_option maxRecDepth 16384

noncomputable section

namespace Cert.KernelIdeal.Acc

open Idealize.ShloMosaic Idealize.ShloMosaic.TcCoe Idealize.ShloMosaic.Tactic
open Idealize.SL Idealize.SL.Sem
open Cert.KernelIdeal Cert.KernelIdeal.Gen

variable {F : FTy → Type} [FloatOps F]

/-- The whole-tile rectangle starts at the origin. -/
theorem origin : (![0, 0] : Fin S1024x1024.rank → Nat) = fun _ => 0 :=
  funext fun a => by match a with | ⟨0, _⟩ => rfl | ⟨1, _⟩ => rfl

/-- First point of a run: the accumulator ends at the step applied to the zeros just stored. -/
theorem first_acc (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, View.ld_unit_zero (S := S1024x1024) origin]

/-- Middle point: the accumulator ends at the step applied to what it held. -/
theorem middle_acc (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero (S := S1024x1024) origin]
  simp only [View.readAt_eq_ld, harg6.read_unread, harg3.read_unread, harg4.read_unread, View.ld_unit_zero (S := S1024x1024) origin]

/-- Last point: the accumulator ends at the step applied to what it held, … -/
theorem last_acc (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero (S := S1024x1024) origin]
  simp only [View.readAt_eq_ld, harg6.read_unread, harg3.read_unread, harg4.read_unread, View.ld_unit_zero (S := S1024x1024) origin]

/-- … and the output tile holds a copy of it. -/
theorem last_out (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    out0_C_2 c i arg3 harg3 arg4 harg4 arg5 harg5 arg6 harg6 hc0 hc1 x0 x1 xs0 = k0_pay2 xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S1024x1024) origin, View.readCov_unit_zero (S := S1024x1024) _ origin]
  simp only [View.readAt_eq_ld, harg6.read_unread, harg3.read_unread, harg4.read_unread, View.ld_unit_zero (S := S1024x1024) origin]

end Cert.KernelIdeal.Acc

end
-- ==== Proof.LibDotTransposedRhs.lean ====
/-
  The product of an M×K array with the transpose of an N×K array — both operands contracted on their LAST axis, no batch
  axis —, read at an output index (r, c), is the sum over the one contracted coordinate k of the left operand at (r, k)
  times the right operand at (c, k). Stated once for those dimension numbers (`DotDims.transposedRhs`), for a product
  into a zero accumulator inside a kernel body and for the host's product, both over the extended reals. A program's own
  dimension-number record of this form is equal to that one by unfolding.
-/
import Idealize.ShloMosaic.PureOps.Ideal.Laws
import Idealize.ShloMosaic.Lib.ValueIdx

noncomputable section

open scoped BigOperators

namespace TransposedRhsDot

open Idealize.ShloMosaic Idealize.ShloMosaic.ValueIdx

variable (M K N : Nat)

/-- The left operand's index at output index `j` and contraction index `q`: the row of `j`, … -/
theorem lhs0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
/-- … and the contracted coordinate. -/
theorem lhs1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
/-- The right operand's index: the COLUMN of `j` (the right operand's rows are the output's columns), … -/
theorem rhs0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
/-- … and the contracted coordinate. -/
theorem rhs1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum at the output index (r, c), re-indexed by the one contracted coordinate. -/
theorem sum_eq (x : (⟨2, ![M, K]⟩ : Shape).Idx → EReal) (w : (⟨2, ![N, K]⟩ : Shape).Idx → EReal) (r : Fin M) (c : Fin N) :
    ∑ q : (DotDims.transposedRhs M K N).contr.Idx,
        x ((DotDims.transposedRhs M K N).lhsIdx (ix2 r c) q) * w ((DotDims.transposedRhs M K N).rhsIdx (ix2 r c) q)
      = ∑ k : Fin K, x (ix2 r k) * w (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k := funext fun a => Fin.ext (by
    match a with
    | ⟨0, _⟩ => exact lhs0 M K N _ _
    | ⟨1, _⟩ => exact (lhs1 M K N _ _).trans hk)
  have er : (DotDims.transposedRhs M K N).rhsIdx (ix2 r c) ((contrEquiv1 (DotDims.transposedRhs M K N) K rfl rfl).symm k)
      = ix2 c k := funext fun a => Fin.ext (by
    match a with
    | ⟨0, _⟩ => exact rhs0 M K N _ _
    | ⟨1, _⟩ => exact (rhs1 M K N _ _).trans hk)
  rw [el, er]

/-- A kernel's product into the zero accumulator, at (r, c). -/
theorem matmul_zero_apply {φ₁ φ₂ : FTy} (x : FVec Ideal ⟨2, ![M, K]⟩ φ₁) (w : FVec Ideal ⟨2, ![N, K]⟩ φ₂) (r : Fin M) (c : Fin N) :
    FloatOps.matmul (DotDims.transposedRhs M K N) none x w (constant ⟨2, ![M, N]⟩ .f32 0x00000000#32) (ix2 r c)
      = ∑ k : Fin K, x (ix2 r k) * w (ix2 c k) := by
  rw [Ideal.matmul_constant_zero_apply]
  exact sum_eq M K N x w r c

/-- The host's product, at (r, c). -/
theorem dotGeneral_apply {φ₁ φ₂ : FTy} (sched : HostSchedule) (x : FVec Ideal ⟨2, ![M, K]⟩ φ₁) (w : FVec Ideal ⟨2, ![N, K]⟩ φ₂)
    (r : Fin M) (c : Fin N) :
    FloatOps.dotGeneral (DotDims.transposedRhs M K N) none sched x w (ix2 r c)
      = ∑ k : Fin K, x (ix2 r k) * w (ix2 c k) := by
  rw [Ideal.dotGeneral_apply]
  exact sum_eq M K N x w r c

end TransposedRhsDot

end
-- ==== Proof.Payload.lean ====
/-
  The body's arithmetic at one output index. Each grid point adds to the accumulator tile the product of its tile of the
  activations (1024 rows by 1024 contracted columns) with the transpose of its tile of the weights (1024 output columns by
  the same 1024 contracted columns). On the extended reals the product into the zero accumulator is the plain sum over the
  contracted coordinate, so at tile position (p, q) the new accumulator is the old one at (p, q) plus
  `∑ kk, a (p, kk) * b (q, kk)`. The accumulator is reset to the zero word, which denotes the real zero.
-/
import proofs.«181420_j47794396070042_1_alg».proof.Proof.Gen.KernelIdeal.Skeleton
import proofs.«181420_j47794396070042_1_alg».proof.Proof.LibDotTransposedRhs
import Idealize.ShloMosaic.Lib.Pipeline.Value
import Idealize.ShloMosaic.Lib.ValueIdx
import Idealize.ShloMosaic.PureOps.Ideal.Laws

noncomputable section

open scoped BigOperators

namespace Cert.KernelIdeal.Acc

open Idealize.ShloMosaic Idealize.ShloMosaic.ValueIdx Cert.KernelIdeal Cert.KernelIdeal.Gen

/-- The reset value: zero at every tile position. -/
theorem reset_apply (j : S1024x1024.Idx) : k0_pay1 (F := Ideal) j = (0 : EReal) := by
  unfold k0_pay1
  rw [shapeCast_self]
  exact Ideal.ofBits_zero_f32

/-- One accumulation step at tile position (p, q). -/
theorem step_apply (acc : Vec Ideal S1024x1024 .f32) (a b : Vec Ideal S1024x1024 .bf16) (p q : Fin 1024) :
    k0_pay2 (F := Ideal) acc a b (ix2 p q) = acc (ix2 p q) + ∑ kk : Fin 1024, a (ix2 p kk) * b (ix2 q kk) := by
  unfold k0_pay2
  rw [shapeCast_self, shapeCast_self, shapeCast_self]
  refine (addf_apply _ _ _).trans ?_
  exact congrArg (acc (ix2 p q) + ·) (TransposedRhsDot.matmul_zero_apply 1024 1024 1024 a b p q)

end Cert.KernelIdeal.Acc

end
-- ==== Proof.LibBlockSum.lean ====
/-
  A finite sum over `Fin K` taken block by block. For `g : Fin K → β` in a commutative additive monoid and a block
  width `B`, `upTo B g n` is the sum of the first `n` blocks, that is of the entries below `n * B`. It starts at zero,
  grows by one block at a time (`upTo_succ`: the next block's `B` entries are added), and once the blocks exhaust the
  index range it is the whole sum (`upTo_all`). Only commutativity and associativity of the addition are used, so the
  law holds on the extended reals with their infinities.
-/
import Idealize.ShloMosaic.Lib.ValueIdx

open scoped BigOperators

namespace BlockSum

variable {β : Type*} [AddCommMonoid β] {K : ℕ}

/-- `g` continued by zero past its last index, so that it can be summed over ranges of naturals. -/
def ext0 (g : Fin K → β) (l : ℕ) : β := if h : l < K then g ⟨l, h⟩ else 0

theorem ext0_of_lt (g : Fin K → β) {l : ℕ} (h : l < K) : ext0 g l = g ⟨l, h⟩ := dif_pos h

/-- The sum of the first `n` blocks of width `B`: the entries of `g` at the positions below `n * B`. -/
def upTo (B : ℕ) (g : Fin K → β) (n : ℕ) : β := ∑ l ∈ Finset.range (n * B), ext0 g l

/-- No block: the empty sum. -/
theorem upTo_zero (B : ℕ) (g : Fin K → β) : upTo B g 0 = 0 := by
  unfold upTo
  rw [Nat.zero_mul, Finset.range_zero, Finset.sum_empty]

/-- One more block: the entries at `n * B + kk`, `kk < B`, are added. -/
theorem upTo_succ (B : ℕ) (g : Fin K → β) (n : ℕ) (h : n * B + B ≤ K) :
    upTo B g (n + 1) = upTo B g n + ∑ kk : Fin B, g ⟨n * B + kk.val, by have := kk.isLt; omega⟩ := by
  unfold upTo
  rw [Nat.succ_mul, Finset.sum_range_add]
  refine congrArg _ ?_
  rw [Finset.sum_range]
  exact Finset.sum_congr rfl fun kk _ => ext0_of_lt g _

/-- All the blocks: the whole sum. -/
theorem upTo_all (B : ℕ) (g : Fin K → β) (n : ℕ) (h : n * B = K) : upTo B g n = ∑ k : Fin K, g k := by
  unfold upTo
  rw [h, Finset.sum_range]
  exact Finset.sum_congr rfl fun k _ => ext0_of_lt g k.isLt

end BlockSum
-- ==== Proof.Invariant.lean ====
/-
  The kernel's output array, as one function of the two arrays its windows read.
  The grid is 8 by 11 by 4: point `n` works on row tile `n / 44`, column tile `n / 4 % 11` and contracted tile `n % 4`,
  the contracted axis running fastest. Write `X` for the 8192 by 4096 array of activations and `W` for the 11264 by 4096
  array of weights as the region finds them, and for an output entry (r, o) let `g k = X (r, k) * W (o, k)`.
  After the point with contracted tile `j` the accumulator holds, at tile position (p, q) under (r, o), the sum of the
  first `j + 1` blocks of 1024 entries of `g`: the first point of a run adds block 0 to the zeros it has just stored, every
  later point adds its block to what the point before left (induction on the point). The last point of each run, the only
  one written back, therefore leaves the whole sum `∑ k, g k` in the output tile; these tiles cover the output array.
-/
import proofs.«181420_j47794396070042_1_alg».proof.Proof.Pieces
import proofs.«181420_j47794396070042_1_alg».proof.Proof.Payload
import proofs.«181420_j47794396070042_1_alg».proof.Proof.LibBlockSum

set_option maxRecDepth 16384

noncomputable section

open scoped BigOperators

namespace Cert.KernelIdeal.Acc

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The tile indices of the three windows at every grid point, decided over the grid. -/
theorem tiles : ∀ t : Fin cfg0.N,
    win0_0.index t (0 : Fin 2) = t.val / 44 ∧ win0_0.index t (1 : Fin 2) = t.val % 4
    ∧ win0_1.index t (0 : Fin 2) = t.val / 4 % 11 ∧ win0_1.index t (1 : Fin 2) = t.val % 4
    ∧ win0_2.index t (0 : Fin 2) = t.val / 44 ∧ win0_2.index t (1 : Fin 2) = t.val / 4 % 11 :=
  (by decide +kernel : ∀ t : Fin grid0.N, _)

/-- The activations and the weights as the region finds them, and the tiles of them a point is given. -/
abbrev xarr (c : Dev nD) : FVec Ideal S8192x4096 .bf16 := V m c main_v10
abbrev warr (c : Dev nD) : FVec Ideal S11264x4096 .bf16 := V m c main_v8
abbrev xblk (c : Dev nD) (t : Fin cfg0.N) : FVec Ideal S1024x1024 .bf16 := iblk m c 0 t
abbrev wblk (c : Dev nD) (t : Fin cfg0.N) : FVec Ideal S1024x1024 .bf16 := iblk m c 1 t

/-- The activation tile of point `t` at (p, kk) is the array at row `t / 44 * 1024 + p`, column `t % 4 * 1024 + kk`. -/
theorem xblk_apply (c : Dev nD) (t : Fin cfg0.N) (p kk : Fin 1024) (r : Fin 8192) (k : Fin 4096)
    (hr : r.val = t.val / 44 * 1024 + p.val) (hk : k.val = t.val % 4 * 1024 + kk.val) :
    xblk m c t (ix2 p kk) = xarr m c (ix2 r k) := by
  obtain ⟨e0, e1, -⟩ := tiles t
  show V m c main_v10 (((cfg0.win 0).blk t).view.emb (ix2 p kk)) = V m c main_v10 (ix2 r k)
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * kk.val = k.val; omega

/-- The weight tile of point `t` at (q, kk) is the array at row `t / 4 % 11 * 1024 + q`, column `t % 4 * 1024 + kk`. -/
theorem wblk_apply (c : Dev nD) (t : Fin cfg0.N) (q kk : Fin 1024) (o : Fin 11264) (k : Fin 4096)
    (ho : o.val = t.val / 4 % 11 * 1024 + q.val) (hk : k.val = t.val % 4 * 1024 + kk.val) :
    wblk m c t (ix2 q kk) = warr m c (ix2 o k) := by
  obtain ⟨-, -, e2, e3, -⟩ := tiles t
  show V m c main_v8 (((cfg0.win 1).blk t).view.emb (ix2 q kk)) = V m c main_v8 (ix2 o k)
  refine congrArg _ (funext fun a => Fin.ext ?_)
  match a with
  | ⟨0, _⟩ => show win0_1.index t (0 : Fin 2) * 1024 + 1 * q.val = o.val; omega
  | ⟨1, _⟩ => show win0_1.index t (1 : Fin 2) * 1024 + 1 * kk.val = k.val; omega

/-- The products summed into output entry (r, o). -/
def summand (c : Dev nD) (r : Fin 8192) (o : Fin 11264) : Fin 4096 → EReal :=
  fun k => xarr m c (ix2 r k) * warr m c (ix2 o k)

theorem summand_apply (c : Dev nD) (r : Fin 8192) (o : Fin 11264) (k : Fin 4096) :
    summand m c r o k = xarr m c (ix2 r k) * warr m c (ix2 o k) := rfl

/-- The block of products the point `t` adds at tile position (p, q). -/
theorem block_eq (c : Dev nD) (t : Fin cfg0.N) (p q : Fin 1024) (r : Fin 8192) (o : Fin 11264)
    (hr : r.val = t.val / 44 * 1024 + p.val) (ho : o.val = t.val / 4 % 11 * 1024 + q.val)
    (hb : t.val % 4 * 1024 + 1024 ≤ 4096) :
    ∑ kk : Fin 1024, xblk m c t (ix2 p kk) * wblk m c t (ix2 q kk)
      = ∑ kk : Fin 1024, summand m c r o ⟨t.val % 4 * 1024 + kk.val, by have := kk.isLt; omega⟩ := by
  refine Finset.sum_congr rfl fun kk _ => ?_
  rw [summand_apply]
  exact congrArg₂ (· * ·) (xblk_apply m c t p kk r _ hr rfl) (wblk_apply m c t q kk o _ ho rfl)

/-- THE ACCUMULATOR after point `n`: at tile position (p, q), under output entry (r, o), the first `n % 4 + 1` blocks of the
    products. -/
theorem acc_eq (c : Dev nD) : ∀ (n : ℕ) (hn : n < cfg0.N) (p q : Fin 1024) (r : Fin 8192) (o : Fin 11264),
    r.val = n / 44 * 1024 + p.val → o.val = n / 4 % 11 * 1024 + q.val →
    (outsAt0 m c n hn).2 (ix2 p q) = BlockSum.upTo 1024 (summand m c r o) (n % 4 + 1) := by
  intro n
  induction n using Nat.strong_induction_on with
  | _ n ih =>
    intro hn p q r o hr ho
    have hN : n < 352 := lt_of_lt_of_eq hn N_0
    have hb : n % 4 * 1024 + 1024 ≤ 4096 := by omega
    rw [BlockSum.upTo_succ 1024 (summand m c r o) (n % 4) hb]
    by_cases h0 : n % 4 = 0
    · have h1 : ¬ n % 4 = 3 := by omega
      rw [show outsAt0 m c n hn = _ from outsAt0_A m c ⟨n, hn⟩ h0 h1]
      dsimp only
      refine (congrFun (first_acc (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) ((hcond0_0 ⟨n, hn⟩).mpr h0) (fun h => h1 ((hcond0_1 ⟨n, hn⟩).mp h)) (xblk m c ⟨n, hn⟩) (wblk m c ⟨n, hn⟩)) (ix2 p q)).trans ?_
      refine (step_apply _ (xblk m c ⟨n, hn⟩) (wblk m c ⟨n, hn⟩) p q).trans ?_
      have hz : BlockSum.upTo 1024 (summand m c r o) (n % 4) = 0 := by rw [h0]; exact BlockSum.upTo_zero _ _
      rw [reset_apply, hz]
      exact congrArg _ (block_eq m c ⟨n, hn⟩ p q r o hr ho hb)
    · have hprev : (n - 1) % 4 + 1 = n % 4 := by omega
      have ihp := ih (n - 1) (by omega) (by omega) p q r o (by omega) (by omega)
      rw [hprev] at ihp
      by_cases h1 : n % 4 = 3
      · rw [show outsAt0 m c n hn = _ from outsAt0_C m c ⟨n, hn⟩ h0 h1]
        dsimp only
        refine (congrFun (last_acc (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h1) (xblk m c ⟨n, hn⟩) (wblk m c ⟨n, hn⟩) (outsAt0 m c (n - 1) (by omega)).2) (ix2 p q)).trans ?_
        refine (step_apply _ (xblk m c ⟨n, hn⟩) (wblk m c ⟨n, hn⟩) p q).trans ?_
        rw [ihp]
        exact congrArg _ (block_eq m c ⟨n, hn⟩ p q r o hr ho hb)
      · rw [show outsAt0 m c n hn = _ from outsAt0_B m c ⟨n, hn⟩ h0 h1]
        dsimp only
        refine (congrFun (middle_acc (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) (fun h => h1 ((hcond0_1 ⟨n, hn⟩).mp h)) (xblk m c ⟨n, hn⟩) (wblk m c ⟨n, hn⟩) (outsAt0 m c (n - 1) (by omega)).2) (ix2 p q)).trans ?_
        refine (step_apply _ (xblk m c ⟨n, hn⟩) (wblk m c ⟨n, hn⟩) p q).trans ?_
        rw [ihp]
        exact congrArg _ (block_eq m c ⟨n, hn⟩ p q r o hr ho hb)

/-- The output array: entry (r, o) is the sum over the whole contracted axis of `X (r, k) * W (o, k)`. -/
def Gout (c : Dev nD) : FVec Ideal S8192x11264 .f32 := fun i => ∑ k : Fin 4096, summand m c (i 0) (i 1) k

/-- At the last point of a run the output tile is the accumulator, which has reached the whole sum. -/
theorem out_apply (c : Dev nD) (t : Fin cfg0.N) (h3 : t.val % 4 = 3) (p q : Fin 1024) (r : Fin 8192) (o : Fin 11264)
    (hr : r.val = t.val / 44 * 1024 + p.val) (ho : o.val = t.val / 4 % 11 * 1024 + q.val) :
    (outsAt0 m c t.val t.isLt).1 (ix2 p q) = ∑ k : Fin 4096, summand m c r o k := by
  have h0 : ¬ t.val % 4 = 0 := by omega
  have hacc := acc_eq m c t.val t.isLt p q r o hr ho
  rw [h3, BlockSum.upTo_all 1024 (summand m c r o) (3 + 1) (by norm_num)] at hacc
  refine Eq.trans ?_ hacc
  rw [outsAt0_C m c t h0 h3]
  dsimp only
  exact (congrFun (last_out (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (xblk m c t) (wblk m c t) (outsAt0 m c (t.val - 1) (Nat.lt_of_le_of_lt (Nat.sub_le _ _) t.isLt)).2) (ix2 p q)).trans
    (congrFun (last_acc (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (xblk m c t) (wblk m c t) (outsAt0 m c (t.val - 1) (Nat.lt_of_le_of_lt (Nat.sub_le _ _) t.isLt)).2) (ix2 p q)).symm

/-- WHAT A FLUSHING POINT WRITES BACK is its tile of `Gout`. -/
theorem flushed_eq (c : Dev nD) (t : Fin cfg0.N) (hf : (cfg0.win 2).flush t = true) :
    (dats m 0 c).flushed 2 t = ((cfg0.win 2).blk t).view.read (Elt Ideal) (Gout m c) := by
  have h3 : t.val % 4 = 3 := (flush0_2 t).mp hf
  have hN : t.val < 352 := lt_of_lt_of_eq t.isLt N_0
  obtain ⟨-, -, -, -, e4, e5⟩ := tiles t
  show (cfg0.win 2).cut (grid0.coords t) ((dats m 0 c).after 2 t) = _
  rw [after0_2]
  funext j
  have hj0 : (j 0).val < 1024 := (j 0).isLt
  have hj1 : (j 1).val < 1024 := (j 1).isLt
  show (outsAt0 m c t.val t.isLt).1 j = Gout m c (((cfg0.win 2).blk t).view.emb j)
  refine (congrArg (outsAt0 m c t.val t.isLt).1 (eq_ix2 j)).trans ?_
  refine (out_apply m c t h3 ⟨(j 0).val, hj0⟩ ⟨(j 1).val, hj1⟩ ⟨t.val / 44 * 1024 + (j 0).val, by omega⟩ ⟨t.val / 4 % 11 * 1024 + (j 1).val, by omega⟩ rfl rfl).trans ?_
  show _ = ∑ k : Fin 4096, summand m c ((((cfg0.win 2).blk t).view.emb j) 0) ((((cfg0.win 2).blk t).view.emb j) 1) k
  have a0 : (⟨t.val / 44 * 1024 + (j 0).val, by omega⟩ : Fin 8192) = (((cfg0.win 2).blk t).view.emb j) 0 :=
    Fin.ext (by show t.val / 44 * 1024 + (j 0).val = win0_2.index t (0 : Fin 2) * 1024 + 1 * (j 0).val; omega)
  have a1 : (⟨t.val / 4 % 11 * 1024 + (j 1).val, by omega⟩ : Fin 11264) = (((cfg0.win 2).blk t).view.emb j) 1 :=
    Fin.ext (by show t.val / 4 % 11 * 1024 + (j 1).val = win0_2.index t (1 : Fin 2) * 1024 + 1 * (j 1).val; omega)
  rw [a0, a1]

/-- An index of the output array is in point `t`'s tile iff each coordinate is in the tile's range on its axis. -/
theorem mem_blk (t : Fin cfg0.N) (i : S8192x11264.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v11).slice (win0_2.rect t)).set ↔ _
  rw [View.set_slice_whole, Rect.mem_set_unit]
  exact Iff.rfl

/-- Every entry of the output array lies in the tile of the last point of its run. -/
theorem cover (i : S8192x11264.Idx) :
    ∃ t : Fin cfg0.N, (cfg0.win 2).flush t = true ∧ i ∈ ((cfg0.win 2).blk t).view.set := by
  have hi0 : (i 0).val < 8192 := (i 0).isLt
  have hi1 : (i 1).val < 11264 := (i 1).isLt
  have hN : cfg0.N = 352 := N_0
  let t : Fin cfg0.N := ⟨((i 0).val / 1024 * 11 + (i 1).val / 1024) * 4 + 3, by omega⟩
  have htv : t.val = ((i 0).val / 1024 * 11 + (i 1).val / 1024) * 4 + 3 := rfl
  obtain ⟨-, -, -, -, e4, e5⟩ := tiles t
  refine ⟨t, (flush0_2 t).mpr (by omega), ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE OUTPUT ARRAY after the run. -/
theorem final (c : Dev nD) : (dats m 0 c).arrAt 2 cfg0.N = Gout m c :=
  (dats m 0 c).arrAt_eq_of_cover 2 (Gout m c) (fun t hf => flushed_eq m c t hf) cover

end Cert.KernelIdeal.Acc

end
-- ==== Proof.HostSide.lean ====
/-
  The host operations around the kernel, and the kernel's result against the reference's.
  Before the kernel, the activations `x : [4, 2048, 4096]` are laid out as 8192 rows (row `b * 2048 + s`), and the prepared
  weights `w : [11008, 4096]` (the same term of the weight and scale arguments in both programs: divide by one half, round,
  clamp to [-1, 1], times the per-row scale) get 256 rows of padding at the end; the changes of float format are the
  identity on the extended reals. After the kernel the first 11008 output columns are kept and the rows are split back into
  (b, s). An output column below 11008 reads only unpadded rows of the weights, so the padding value never matters, and
  entry (b, s, o) of the result is `∑ k, x (b, s, k) * w (o, k)`: the reference's contraction.
-/
import proofs.«181420_j47794396070042_1_alg».proof.Proof.Invariant
import proofs.«181420_j47794396070042_1_alg».proof.Proof.Gen.ReferenceIdeal.Read
import Idealize.ShloMosaic.Lib.StableHlo.Run
import Idealize.ShloMosaic.Lib.KernelVsHost

set_option maxRecDepth 16384

noncomputable section

open scoped BigOperators

namespace Cert.KernelIdeal.Acc

open Idealize.ShloMosaic Idealize.ShloMosaic.TcCoe Idealize.ShloMosaic.ValueIdx Idealize.ShloMosaic.Tactic
open Idealize.ShloMosaic.StableHlo
open Idealize.SL Idealize.SL.Sem
open Cert.KernelIdeal Cert.KernelIdeal.Gen

variable (m : (ℓ : Loc nD τ sig) → Buf (Elt Ideal) ℓ)

/-- The activations argument. -/
abbrev acts (c : Dev nD) : FVec Ideal S4x2048x4096 .f32 := m ((c : Thread nD τ).loc main_arg0)

/-- The prepared weights, the term the reference contracts with: both programs compute it by the same operations. -/
abbrev weights (c : Dev nD) : FVec Ideal S11008x4096 .f32 :=
  Cert.ReferenceIdeal.Read.val_main_v6 (F := Ideal) (m ((c : Thread nD τ).loc main_arg1)) (m ((c : Thread nD τ).loc main_arg2))

/-- The kernel's first operand: the activations with the two leading axes merged. -/
theorem xarr_eq (c : Dev nD) :
    xarr m c = truncf .bf16 (shapeCast S8192x4096 (acts m c) shapeCasts_S4x2048x4096_S8192x4096) bitsLt_bf16_f32 := by
  show (V m c main_v10 : S8192x4096.Idx → EReal) = _
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem xarr_apply (c : Dev nD) (b : Fin 4) (s : Fin 2048) (k : Fin 4096) (r : Fin 8192) (hr : r.val = b.val * 2048 + s.val) :
    xarr m c (ix2 r k) = acts m c (ix3 b s k) := by
  rw [xarr_eq]
  show shapeCast S8192x4096 (acts m c) shapeCasts_S4x2048x4096_S8192x4096 (ix2 r k) = _
  exact shapeCast_apply _ _ _ _ (by
    rw [Shape.rowMajor_val_three, Shape.rowMajor_val_two]
    show (b.val * 2048 + s.val) * 4096 + k.val = r.val * 4096 + k.val
    rw [hr])

/-- The kernel's second operand: the prepared weights with 256 rows of padding after them. -/
theorem warr_eq (c : Dev nD) :
    warr m c = truncf .bf16 (pad S11264x4096 ![0, 0] ![256, 0] ![0, 0] (weights m c)
      (sitofp .f32 (constantI S_ 32 0#32) : FVec Ideal S_ .f32) pads_S11008x4096_S11264x4096_02560_000 h_S_) bitsLt_bf16_f32 := by
  show (V m c main_v8 : S11264x4096.Idx → EReal) = _
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem warr_apply (c : Dev nD) (o : Fin 11008) (k : Fin 4096) (o' : Fin 11264) (ho : o'.val = o.val) :
    warr m c (ix2 o' k) = weights m c (ix2 o k) := by
  rw [warr_eq]
  show pad S11264x4096 ![0, 0] ![256, 0] ![0, 0] (weights m c) (sitofp .f32 (constantI S_ 32 0#32) : FVec Ideal S_ .f32)
    pads_S11008x4096_S11264x4096_02560_000 h_S_ (ix2 o' k) = _
  exact pad_apply_of_inside _ _ _ _ _ _ _ (ix2 o' k) (ix2 o k) (fun a => by
    match a with
    | ⟨0, _⟩ => show o'.val = 0 + o.val * (0 + 1); omega
    | ⟨1, _⟩ => show k.val = 0 + k.val * (0 + 1); omega)

/-- The program's result: the kernel's output array, its first 11008 columns, the rows split into (b, s). -/
theorem result_eq (c : Dev nD) :
    (Pipeline.afterTail₀ cfgs (dats m) 0 (V0 m) [hostOps1] c main_v13 : S4x2048x11008.Idx → EReal)
      = shapeCast S4x2048x11008 (extractStridedSlice S8192x11008 ![0, 0] (Gout m c) slices_S8192x11264_S8192x11008_0_0)
          shapeCasts_S8192x11008_S4x2048x11008 := by
  have e : Pipeline.withArrays (cfgs 0).spec c (V0 m c) (fun w => (dats m 0 c).arrAt w (cfgs 0).N) (Proc.devRef .tc main_v11)
      = Gout m c := (Pipeline.withArrays_arr spec0 launch0.win.arr_inj c _ _ 2).trans (final m c)
  unfold Pipeline.afterTail₀
  show StableHlo.after hostOps1 _ (Proc.devRef .tc main_v13) = _
  after_results
  rw [e]
  rfl

/-- Entry (b, s, o) of the result. -/
theorem result_apply (c : Dev nD) (b : Fin 4) (s : Fin 2048) (o : Fin 11008) :
    shapeCast S4x2048x11008 (extractStridedSlice S8192x11008 ![0, 0] (Gout m c) slices_S8192x11264_S8192x11008_0_0)
        shapeCasts_S8192x11008_S4x2048x11008 (ix3 b s o)
      = ∑ k : Fin 4096, acts m c (ix3 b s k) * weights m c (ix2 o k) := by
  have hb := b.isLt; have hs := s.isLt; have ho := o.isLt
  refine (shapeCast_apply _ _ (ix3 b s o) (ix2 (⟨b.val * 2048 + s.val, by omega⟩ : Fin 8192) o) (by
    rw [Shape.rowMajor_val_two, Shape.rowMajor_val_three]
    show (b.val * 2048 + s.val) * 11008 + o.val = (b.val * 2048 + s.val) * 11008 + o.val
    rfl)).trans ?_
  refine (extractStridedSlice_apply _ _ _ (ix2 (⟨b.val * 2048 + s.val, by omega⟩ : Fin 8192) o)
    (ix2 (⟨b.val * 2048 + s.val, by omega⟩ : Fin 8192) (⟨o.val, by omega⟩ : Fin 11264)) (fun a => by
      match a with
      | ⟨0, _⟩ => show b.val * 2048 + s.val = 0 + (b.val * 2048 + s.val); omega
      | ⟨1, _⟩ => show o.val = 0 + o.val; omega)).trans ?_
  show ∑ k : Fin 4096, summand m c (⟨b.val * 2048 + s.val, by omega⟩ : Fin 8192) (⟨o.val, by omega⟩ : Fin 11264) k = _
  refine Finset.sum_congr rfl fun k _ => ?_
  rw [summand_apply, xarr_apply m c b s k _ rfl, warr_apply m c o k _ rfl]

/-- THE KERNEL PROGRAM'S RESULT is the reference's last stage of the same arguments. -/
theorem value_eq (c : Dev nD) :
    (Pipeline.afterTail₀ cfgs (dats m) 0 (V0 m) [hostOps1] c main_v13 : S4x2048x11008.Idx → EReal)
      = Cert.ReferenceIdeal.Read.val_main_v7 (F := Ideal) (m ((c : Thread nD τ).loc main_arg0))
          (m ((c : Thread nD τ).loc main_arg1)) (m ((c : Thread nD τ).loc main_arg2)) := by
  rw [result_eq]
  funext i
  obtain ⟨b, s, o, rfl⟩ : ∃ (b : Fin 4) (s : Fin 2048) (o : Fin 11008), i = ix3 b s o := ⟨i 0, i 1, i 2, eq_ix3 i⟩
  rw [result_apply, Cert.ReferenceIdeal.Read.val_main_v7_apply]
  refine Finset.sum_congr rfl fun k _ => ?_
  have el : Cert.ReferenceIdeal.Read.lidx_main_v7 (ix3 b s o) k = ix3 b s k := funext fun a => Fin.ext (by
    match a with
    | ⟨0, _⟩ => rfl
    | ⟨1, _⟩ => rfl
    | ⟨2, _⟩ => rfl)
  have er : Cert.ReferenceIdeal.Read.ridx_main_v7 (ix3 b s o) k = ix2 o k := funext fun a => Fin.ext (by
    match a with
    | ⟨0, _⟩ => rfl
    | ⟨1, _⟩ => rfl)
  rw [el, er]

/-- The kernel program's run, read: its result at the reference's stage of the arguments, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v13) = Cert.ReferenceIdeal.Read.val_main_v7 (F := Ideal) (m ((c : Thread nD τ).loc main_arg0))
          (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v13 (Pipeline.mem_restRefs_of main_v13 (by decide) (by decide))).trans (value_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.lean ====
/-
  A linear layer with ternary weights: `x : [4, 2048, 4096]` against weights `w : [11008, 4096]` prepared from the weight
  and scale arguments (divide by one half, round, clamp to [-1, 1], times the per-row scale), `out (b, s, o) = ∑ k, x (b, s, k) *
  w (o, k)`. The reference contracts in one host operation. The kernel lays `x` out as 8192 rows, pads `w` to 11264 rows, and
  walks an 8 by 11 by 4 grid of 1024-wide tiles: along the last grid axis it accumulates four partial products of 1024
  contracted columns each into a carried tile, and writes the tile out at the fourth; the padded output columns are dropped.
  On the extended reals the changes of float format are the identity and a product into a zero accumulator is the plain sum,
  so the only law between the two sides is that a sum of 4096 terms may be taken in four blocks of 1024 — commutativity and
  associativity of addition, which hold with the infinities; finiteness of the inputs is never used.
  The three frames are the generated ones (the reference's is its generated run with the result dropped); the idealization
  rewrote no operation, so `preserves` is trivial; `algebraic` states both runs' results as the reference's last stage of
  the arguments: the kernel program's by Proof/HostSide.lean, over the accumulation of Proof/Invariant.lean.
-/
import proofs.«181420_j47794396070042_1_alg».proof.Defs
import proofs.«181420_j47794396070042_1_alg».proof.Proof.Gen.Kernel
import proofs.«181420_j47794396070042_1_alg».proof.Proof.Gen.Kernel.Skeleton
import proofs.«181420_j47794396070042_1_alg».proof.Proof.Gen.Kernel.Launch
import proofs.«181420_j47794396070042_1_alg».proof.Proof.Gen.Kernel.Points
import proofs.«181420_j47794396070042_1_alg».proof.Proof.Gen.Kernel.Frame
import proofs.«181420_j47794396070042_1_alg».proof.Proof.Gen.KernelIdeal
import proofs.«181420_j47794396070042_1_alg».proof.Proof.Gen.KernelIdeal.Skeleton
import proofs.«181420_j47794396070042_1_alg».proof.Proof.Gen.KernelIdeal.Launch
import proofs.«181420_j47794396070042_1_alg».proof.Proof.Gen.KernelIdeal.Points
import proofs.«181420_j47794396070042_1_alg».proof.Proof.Gen.KernelIdeal.Frame
import proofs.«181420_j47794396070042_1_alg».proof.Proof.Gen.ReferenceIdeal
import proofs.«181420_j47794396070042_1_alg».proof.Proof.Gen.ReferenceIdeal.Run
import proofs.«181420_j47794396070042_1_alg».proof.Proof.Gen.ReferenceIdeal.Read
import proofs.«181420_j47794396070042_1_alg».proof.Proof.Gen.Pre_finite_inputs
import proofs.«181420_j47794396070042_1_alg».proof.Proof.HostSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the reference's last stage of the (agreeing) arguments. -/
theorem algebraic : Cert.algebraic_KernelIdeal_ReferenceIdeal := by
  intro m ρ m' ρ' _ hagree
  refine ⟨fun c => Cert.ReferenceIdeal.Read.val_main_v7 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Acc.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
